-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel

variable [Facts]

def fn {F : FTy → Type} [FloatOps F] (main_arg0 : FVec F S8x4096x512 .f32) (main_arg1 : FVec F S8x4096x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  main_v8
-- ==== Kernel.lean ====
abbrev S8x4096x512 : Shape := ⟨3, ![8, 4096, 512]⟩
abbrev S8x4096x4096 : Shape := ⟨3, ![8, 4096, 4096]⟩
abbrev S1x1024x512 : Shape := ⟨3, ![1, 1024, 512]⟩
abbrev S1x1024x1024 : Shape := ⟨3, ![1, 1024, 1024]⟩
abbrev S1024x512 : Shape := ⟨2, ![1024, 512]⟩
abbrev S1024 : Shape := ⟨1, ![1024]⟩
abbrev S1024x1 : Shape := ⟨2, ![1024, 1]⟩
abbrev S1x1024 : Shape := ⟨2, ![1, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x4096, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x1024, .f32⟩
  | .local _ .vmem, ⟨5, _⟩ => ⟨S1x1024x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x512_S1024 : S1024x512.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x512_p1_0_S512x1024 : S1024x512.Transposes [1, 0] S512x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x4096x512.size a
  hwx0_0 : ∀ i : grid0.Coords, EltTy.bits .f32 = 32 ∨ (Rect.block (s := S8x4096x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x4096x512.size a
  hwx0_1 : ∀ i : grid0.Coords, EltTy.bits .f32 = 32 ∨ (Rect.block (s := S8x4096x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x4096x4096.size a
  hwx0_2 : ∀ i : grid0.Coords, EltTy.bits .f32 = 32 ∨ (Rect.block (s := S8x4096x4096) S1x1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S_, .f32⟩
  | .hbm, ⟨4, _⟩ => ⟨S8x4096, .f32⟩
  | .hbm, ⟨5, _⟩ => ⟨S8x4096x512, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8x4096x512_S8x4096_d2 : S8x4096x512.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  dot_S8x4096x512_S8x4096x512_S8x4096x4096_2_2_1_1_0_0_wf : DotDims.WF S8x4096x512 S8x4096x512 S8x4096x4096 [2] [2] [1] [1] [0] [0]

variable [Facts₀]

def dot_S8x4096x512_S8x4096x512_S8x4096x4096_2_2_1_1_0_0 : DotDims S8x4096x512 S8x4096x512 S8x4096x4096 where
  lhsContracting := [2]
  rhsContracting := [2]
  lhsNonContracting := [1]
  rhsNonContracting := [1]
  lhsBatch := [0]
  rhsBatch := [0]
  wf := dot_S8x4096x512_S8x4096x512_S8x4096x4096_2_2_1_1_0_0_wf

class Facts : Prop extends Facts₀ where

variable [Facts]
-- ==== Proof.Spec.lean ====
/-
  The negated pairwise Euclidean distance, as one function of the two argument arrays.

  For `x, y : [8, 4096, 512]` (batches of 4096 rows of length 512) the result at `(b, n, m)` is
    `−√ max( (‖x[b,n]‖² + ‖y[b,m]‖²) − 2 · ⟨x[b,n], y[b,m]⟩ , 0 )`
  with `‖v‖² = Σ_d v[d]·v[d]` and `⟨v, w⟩ = Σ_d v[d]·w[d]`, every operation the extended reals' own and in
  exactly this grouping. Both programs compute it in this grouping, so no law of arithmetic beyond
  `0 + s = s` and `0 − s = −s` is needed to join them, and the inputs' finiteness is never used.
-/
import Idealize.ShloMosaic.PureOps.Ideal
import Idealize.ShloMosaic.Lib.ValueIdx

noncomputable section

open scoped BigOperators

namespace Cert.NegDist

open Idealize.ShloMosaic Idealize.ShloMosaic.ValueIdx

/-- The arguments' shape: 8 batches of 4096 rows of length 512. -/
abbrev Rows : Shape := ⟨3, ![8, 4096, 512]⟩
/-- The result's shape: per batch, one entry per pair of rows. -/
abbrev Pairs : Shape := ⟨3, ![8, 4096, 4096]⟩

/-- `‖x[b,n]‖²`: the sum of the squares of row `n` of batch `b`. -/
def sqNorm (x : Rows.Idx → EReal) (b : Fin 8) (n : Fin 4096) : EReal :=
  ∑ d : Fin 512, x (ix3 b n d) * x (ix3 b n d)

/-- `⟨x[b,n], y[b,m]⟩`: the inner product of row `n` of `x` and row `m` of `y` in batch `b`. -/
def inner (x y : Rows.Idx → EReal) (b : Fin 8) (n m : Fin 4096) : EReal :=
  ∑ d : Fin 512, x (ix3 b n d) * y (ix3 b m d)

/-- From the three sums to the entry: `−√ max((s + s') − 2·c, 0)`; the factor `2` is kept as the float word both
    programs write, never evaluated. -/
def entry (s s' c : EReal) : EReal :=
  -(Ideal.sqrt (max ((s + s') - Ideal.ofBits .f32 0x40000000#32 * c) 0))

/-- `entry` respects equality of each of its three sums. -/
theorem entry_congr {s s' c t t' e : EReal} (h : s = t) (h' : s' = t') (hc : c = e) : entry s s' c = entry t t' e := by
  rw [h, h', hc]

/-- The entry at batch `b`, rows `n` and `m`. -/
def negDistAt (x y : Rows.Idx → EReal) (b : Fin 8) (n m : Fin 4096) : EReal :=
  entry (sqNorm x b n) (sqNorm y b m) (inner x y b n m)

/-- The whole result array. -/
def negDist (x y : Rows.Idx → EReal) : Pairs.Idx → EReal :=
  fun i => negDistAt x y (i 0) (i 1) (i 2)

theorem negDist_ix3 (x y : Rows.Idx → EReal) (b : Fin 8) (n m : Fin 4096) :
    negDist x y (ix3 b n m) = negDistAt x y b n m := rfl

end Cert.NegDist

end
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.LibRowSums.lean ====
/-
  Row sums kept as a column, read at coordinates.

  `jnp.sum(x, axis=-1, keepdims=True)` of an `a × b` matrix is a lane reduction into a vector of length `a`,
  recast as an `a × 1` column; a kernel then either broadcasts the column along the rows of an `a × c`
  matrix, or transposes it to a `1 × a` row first. Read on the extended reals at explicit coordinates:
  the reduction at `p` is `Σₖ x[p, k]` over `k : Fin b`; the column at `(p, u)` is the vector at `p`; the
  column broadcast at `(p, q)` is the column at `(p, 0)`.
-/
import Idealize.ShloMosaic.PureOps.Ideal.Laws
import Idealize.ShloMosaic.Lib.ValueIdx
import Idealize.ShloMosaic.Lib.Pipeline.Value

noncomputable section

open scoped BigOperators

namespace Idealize.ShloMosaic.RowSums

open Idealize.ShloMosaic Idealize.ShloMosaic.ValueIdx

variable {α : Type}

/-- A length-`a` vector recast as an `a × 1` column reads, at `(p, u)`, the vector at `p`: both sit at
    row-major position `p`, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column broadcast along the rows of an `a × c` matrix reads, at `(p, q)`, the column at `(p, 0)`. -/
theorem broadcastTo_a1_ac_apply {a c : ℕ} (v : (⟨2, ![a, 1]⟩ : Shape).Idx → α) (h : (⟨2, ![a, 1]⟩ : Shape).Broadcasts ⟨2, ![a, c]⟩)
    (p : Fin a) (q : Fin c) : broadcastTo ⟨2, ![a, c]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A lane reduction by `+` from the zero word of an `a × b` matrix over its second axis reads, at `p`, the sum
    `Σₖ x[p, k]` over `k : Fin b`: the index lifted from `p` with `k` inserted on the reduced axis is `(p, k)`. -/
theorem rowSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x (funext fun d => Fin.ext ?_)
  match d with
  | ⟨0, _⟩ => rfl
  | ⟨1, _⟩ => rfl

end Idealize.ShloMosaic.RowSums

end
-- ==== Proof.Body.lean ====
/-
  What one grid step stores, read at an entry of its block.

  A step loads a `1024 × 512` block `x` of the first argument and a `1024 × 512` block `y` of the second (each with a
  leading unit axis) and stores a `1024 × 1024` block. At `(p, q)` the stored value is
    `0 − √ max((Σ_d x[p,d]² + Σ_d y[q,d]²) − 2 · Σ_d x[p,d]·y[q,d], 0)`:
  `x`'s row sums are kept as a column and broadcast along the rows; `y`'s are kept as a column, transposed to a
  row and broadcast along the columns; the product `x · yᵀ` into zeros is the sum over `d` (the narrowing of the
  factors' format is the identity on the extended reals); and `0 − s = −s`.
-/
import proofs.«148608_j37383395344617_1_alg».proof.Proof.Gen.KernelIdeal.Skeleton
import proofs.«148608_j37383395344617_1_alg».proof.Proof.Spec
import proofs.«148608_j37383395344617_1_alg».proof.Proof.LibPlainDot
import proofs.«148608_j37383395344617_1_alg».proof.Proof.LibRowSums
import Idealize.ShloMosaic.Lib.ValueLayout

noncomputable section

open scoped BigOperators

namespace Cert.NegDist.Body

open Cert.KernelIdeal Cert.KernelIdeal.Gen Idealize.ShloMosaic Idealize.ShloMosaic.ValueIdx Cert.NegDist
open Idealize.ShloMosaic.RowSums Idealize.ShloMosaic.PlainDot

/-- The pointwise tail of the step: from the three matrices of sums to the stored matrix, entry by entry. -/
theorem tail_apply {s : Shape} (A B C : FVec Ideal s .f32) (j : s.Idx) :
    subf (broadcast s (Scalar.ofBits (F := Ideal) .f32 0x00000000#32))
        (sqrt (maximumf (subf (addf A B) (mulf (broadcast s (Scalar.ofBits (F := Ideal) .f32 0x40000000#32)) C))
          (broadcast s (Scalar.ofBits (F := Ideal) .f32 0x00000000#32)))) j
      = entry (A j) (B j) (C j) := by
  show Ideal.ofBits .f32 0x00000000#32
      - Ideal.sqrt (max ((A j + B j) - Ideal.ofBits .f32 0x40000000#32 * C j) (Ideal.ofBits .f32 0x00000000#32)) = _
  rw [Ideal.ofBits_zero_f32, zero_sub]
  rfl

/-- THE STORED BLOCK AT `(u, p, q)`: the specification's entry of the two loaded blocks' rows `p` and `q`. -/
theorem stored_apply (x y : Vec Ideal S1x1024x512 .f32) (u : Fin 1) (p q : Fin 1024) :
    k0_pay1 (F := Ideal) x y (ix3 u p q)
      = entry (∑ d : Fin 512, x (ix3 (0 : Fin 1) p d) * x (ix3 (0 : Fin 1) p d))
          (∑ d : Fin 512, y (ix3 (0 : Fin 1) q d) * y (ix3 (0 : Fin 1) q d))
          (∑ d : Fin 512, x (ix3 (0 : Fin 1) p d) * y (ix3 (0 : Fin 1) q d)) := by
  unfold k0_pay1
  refine (shapeCast_ab_1ab_apply _ _ u p q).trans ?_
  refine (tail_apply _ _ _ (ix2 p q)).trans ?_
  refine entry_congr ?_ ?_ ?_
  · -- x's row sums: a column, broadcast along the rows
    refine (broadcastTo_a1_ac_apply _ _ p q).trans ((shapeCast_a_a1_apply _ _ p 0).trans ((rowSum_apply _ _ _ _ p).trans ?_))
    exact Finset.sum_congr rfl fun d _ => by rw [mulf_apply, shapeCast_1ab_ab_apply]
  · -- y's row sums: a column, transposed to a row, broadcast along the columns
    refine (broadcastTo_1b_ab_apply _ _ p q).trans ((transpose_ix2_apply _ _ (0 : Fin 1) q).trans
      ((shapeCast_a_a1_apply _ _ q 0).trans ((rowSum_apply _ _ _ _ q).trans ?_)))
    exact Finset.sum_congr rfl fun d _ => by rw [mulf_apply, shapeCast_1ab_ab_apply]
  · -- the product x · yᵀ into zeros
    refine (matmul_zero_apply 1024 512 1024 none _ _ p q).trans ?_
    exact Finset.sum_congr rfl fun d _ => by
      rw [truncf_apply, shapeCast_1ab_ab_apply, transpose_ix2_apply, truncf_apply, shapeCast_1ab_ab_apply]

end Cert.NegDist.Body

end
-- ==== Proof.Blocks.lean ====
/-
  From what each grid step stores to the whole result array.

  The grid is `8 × 4 × 4`: step `(b, i, k)` loads rows `1024·i …` of batch `b` of the first argument and rows
  `1024·k …` of batch `b` of the second, and writes back the block `(b, i, k)` of the result, of size
  `1 × 1024 × 1024`. An element `(u, p, q)` of that block sits at `(b, 1024·i + p, 1024·k + q)` of the result, and
  row `p` of the first loaded block is row `1024·i + p` of batch `b`, row `q` of the second is row `1024·k + q`;
  so what the step writes back is the block of ONE function of the two arguments, the negated pairwise distance.
  The `8 · 4 · 4` blocks tile the result, each index `(b, n, m)` lying in block `(b, n / 1024, m / 1024)`.
-/
import proofs.«148608_j37383395344617_1_alg».proof.Proof.Gen.KernelIdeal.Value
import proofs.«148608_j37383395344617_1_alg».proof.Proof.Body

noncomputable section

open scoped BigOperators

namespace Cert.NegDist.Blocks

open Cert.KernelIdeal Cert.KernelIdeal.Gen Idealize.ShloMosaic Idealize.ShloMosaic.TcCoe Idealize.SL.Sem
open Idealize.ShloMosaic.ValueIdx Cert.NegDist
open Idealize.ShloMosaic.Pipeline (Dat)

variable (m : (ℓ : Loc nD τ sig) → Buf (Elt Ideal) ℓ) (ρ : Dev nD → PrngReg)

/-- The body's loads and its store start at the origin of their buffers. -/
theorem origin : (![0, 0, 0] : Fin 3 → Nat) = fun _ => 0 := funext fun a => by fin_cases a <;> rfl

/-- The printed index maps at every grid point: the first argument's block follows the result's on the batch and
    the row-block axes, the second's on the batch and the column-block axes, both at block `0` of the row length; and the
    result's block index stays inside `8 × 4 × 4`. -/
theorem index_maps : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = win0_2.index t (2 : Fin 3)
    ∧ win0_1.index t (2 : Fin 3) = 0
    ∧ win0_2.index t (0 : Fin 3) < 8 ∧ win0_2.index t (1 : Fin 3) < 4 ∧ win0_2.index t (2 : Fin 3) < 4 :=
  (by decide +kernel : ∀ t : Fin grid0.N, _)

/-- Every block index of `8 × 4 × 4` is some grid point's. -/
theorem index_onto : ∀ (b : Fin 8) (i k : Fin 4), ∃ t : Fin cfg0.N, win0_2.index t = ![b.val, i.val, k.val] :=
  (by decide +kernel : ∀ (b : Fin 8) (i k : Fin 4), ∃ t : Fin grid0.N, win0_2.index t = ![b.val, i.val, k.val])

/-- WHAT POINT `t` WRITES BACK is block `t` of the negated pairwise distance of the two argument arrays. -/
theorem flushed_eq (c : Dev nD) (t : Fin cfg0.N) :
    (dats m 0 c).flushed 2 t
      = ((cfg0.win 2).blk t).view.read (Elt Ideal) (negDist (V m c main_arg0) (V m c main_arg1)) := by
  rw [Cert.KernelIdeal.Value.flushed2]
  unfold out0_2
  rw [View.canon_unit_zero origin]
  simp only [View.ld_unit_zero (S := S1x1024x512) origin]
  obtain ⟨e00, e01, e02, e10, e11, e12, hb, hi, hk⟩ := index_maps t
  funext j
  obtain ⟨u, p, q, rfl⟩ : ∃ (u : Fin 1) (p q : Fin 1024), j = ix3 u p q := ⟨j 0, j 1, j 2, eq_ix3 j⟩
  show k0_pay1 (F := Ideal) (iblk m c 0 t) (iblk m c 1 t) (ix3 u p q)
    = negDist (V m c main_arg0) (V m c main_arg1) (((cfg0.win 2).blk t).view.emb (ix3 u p q))
  refine (Body.stored_apply _ _ u p q).trans ?_
  have hp : p.val < 1024 := p.isLt
  have hq : q.val < 1024 := q.isLt
  have hu : u.val = 0 := by omega
  -- the element's place in the result
  have hplace : ((cfg0.win 2).blk t).view.emb (ix3 u p q)
      = ix3 (⟨win0_2.index t (0 : Fin 3), hb⟩ : Fin 8) (⟨win0_2.index t (1 : Fin 3) * 1024 + p.val, by omega⟩ : Fin 4096)
          (⟨win0_2.index t (2 : Fin 3) * 1024 + q.val, by omega⟩ : Fin 4096) := by
    funext a; apply Fin.ext
    match a with
    | ⟨0, _⟩ => show win0_2.index t (0 : Fin 3) * 1 + 1 * u.val = win0_2.index t (0 : Fin 3); omega
    | ⟨1, _⟩ => show win0_2.index t (1 : Fin 3) * 1024 + 1 * p.val = win0_2.index t (1 : Fin 3) * 1024 + p.val; omega
    | ⟨2, _⟩ => show win0_2.index t (2 : Fin 3) * 1024 + 1 * q.val = win0_2.index t (2 : Fin 3) * 1024 + q.val; omega
  -- row p of the first loaded block, row q of the second
  have hx : ∀ d : Fin 512, iblk m c 0 t (ix3 (0 : Fin 1) p d)
      = V m c main_arg0 (ix3 (⟨win0_2.index t (0 : Fin 3), hb⟩ : Fin 8) (⟨win0_2.index t (1 : Fin 3) * 1024 + p.val, by omega⟩ : Fin 4096) d) := fun d => by
    show V m c main_arg0 (((cfg0.win 0).blk t).view.emb (ix3 (0 : Fin 1) p d)) = _
    refine congrArg _ (funext fun a => Fin.ext ?_)
    have hd : d.val < 512 := d.isLt
    match a with
    | ⟨0, _⟩ => show win0_0.index t (0 : Fin 3) * 1 + 1 * 0 = win0_2.index t (0 : Fin 3); omega
    | ⟨1, _⟩ => show win0_0.index t (1 : Fin 3) * 1024 + 1 * p.val = win0_2.index t (1 : Fin 3) * 1024 + p.val; omega
    | ⟨2, _⟩ => show win0_0.index t (2 : Fin 3) * 512 + 1 * d.val = d.val; omega
  have hy : ∀ d : Fin 512, iblk m c 1 t (ix3 (0 : Fin 1) q d)
      = V m c main_arg1 (ix3 (⟨win0_2.index t (0 : Fin 3), hb⟩ : Fin 8) (⟨win0_2.index t (2 : Fin 3) * 1024 + q.val, by omega⟩ : Fin 4096) d) := fun d => by
    show V m c main_arg1 (((cfg0.win 1).blk t).view.emb (ix3 (0 : Fin 1) q d)) = _
    refine congrArg _ (funext fun a => Fin.ext ?_)
    have hd : d.val < 512 := d.isLt
    match a with
    | ⟨0, _⟩ => show win0_1.index t (0 : Fin 3) * 1 + 1 * 0 = win0_2.index t (0 : Fin 3); omega
    | ⟨1, _⟩ => show win0_1.index t (1 : Fin 3) * 1024 + 1 * q.val = win0_2.index t (2 : Fin 3) * 1024 + q.val; omega
    | ⟨2, _⟩ => show win0_1.index t (2 : Fin 3) * 512 + 1 * d.val = d.val; omega
  rw [hplace, negDist_ix3]
  exact entry_congr
    (Finset.sum_congr rfl fun d _ => by rw [hx d])
    (Finset.sum_congr rfl fun d _ => by rw [hy d])
    (Finset.sum_congr rfl fun d _ => by rw [hx d, hy d])

/-- An index of the result is in point `t`'s block iff each coordinate is in the block's range on its axis. -/
theorem mem_blk (t : Fin cfg0.N) (i : S8x4096x4096.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0).slice (win0_2.rect t)).set ↔ _
  rw [View.set_slice_whole, Rect.mem_set_unit]
  exact Iff.rfl

/-- THE BLOCKS TILE THE RESULT: `(b, n, m)` lies in the block of the point whose index is `(b, n / 1024, m / 1024)`. -/
theorem cover (i : S8x4096x4096.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 4096 := (i 2).isLt
  obtain ⟨t, ht⟩ := index_onto ⟨(i 0).val, h0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 1024 ≤ (i 2).val ∧ (i 2).val < win0_2.index t (2 : Fin 3) * 1024 + 1024
    omega

/-- THE RESULT ARRAY after the run is the negated pairwise distance of the two arguments as launched. -/
theorem final (c : Dev nD) :
    (dats m 0 c).arrAt 2 cfg0.N
      = negDist (m ((c : Thread nD τ).loc main_arg0)) (m ((c : Thread nD τ).loc main_arg1)) :=
  (dats m 0 c).arrAt_eq_of_cover 2 (negDist (V m c main_arg0) (V m c main_arg1)) (fun t _ => flushed_eq m c t) cover

/-- The kernel's run, read: the result at the specification of the arguments, the arguments unchanged. -/
theorem run : θ_run defs (onTc (τ := τ) (main (F := Ideal))) ⟨m, fun _ => 0, ρ⟩ fun r => ∀ c : Dev nD,
      r.2.mem ((c : Thread nD τ).loc main_v0)
        = negDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.NegDist.Blocks

end
-- ==== Proof.Reference.lean ====
/-
  The reference computes the negated pairwise distance.

  Read at `(b, n, m)`, the reference's last stage is `−√ max((0 + Σ_d x[b,n,d]²) + (0 + Σ_d y[b,m,d]²) − 2·Σ_d x[b,n,d]·y[b,m,d], 0)`:
  the two row sums are broadcast, one along the columns and one along the rows, by index maps that keep `(b, n)`
  and `(b, m)`; the batched contraction reads `x` at `(b, n, d)` and `y` at `(b, m, d)`. With `0 + s = s` this is
  the specification's entry.
-/
import proofs.«148608_j37383395344617_1_alg».proof.Proof.Gen.ReferenceIdeal.Read
import proofs.«148608_j37383395344617_1_alg».proof.Proof.Spec

noncomputable section

open scoped BigOperators

namespace Cert.NegDist.Reference

open Cert.ReferenceIdeal Cert.ReferenceIdeal.Read Idealize.ShloMosaic Idealize.ShloMosaic.ValueIdx Cert.NegDist

/-- Through the two broadcasts and the reduction, `x`'s squares are read at `(b, n, d)`. -/
theorem idx_sq_x (b : Fin 8) (n m : Fin 4096) (d : Fin 512) :
    idx_main_v1 (idx_main_v5 (idx_main_v7 (ix3 b n m))) d = ix3 b n d :=
  funext fun a => Fin.ext (by match a with | ⟨0, _⟩ => rfl | ⟨1, _⟩ => rfl | ⟨2, _⟩ => rfl)

/-- Likewise `y`'s squares are read at `(b, m, d)`. -/
theorem idx_sq_y (b : Fin 8) (n m : Fin 4096) (d : Fin 512) :
    idx_main_v3 (idx_main_v6 (idx_main_v8 (ix3 b n m))) d = ix3 b m d :=
  funext fun a => Fin.ext (by match a with | ⟨0, _⟩ => rfl | ⟨1, _⟩ => rfl | ⟨2, _⟩ => rfl)

/-- The contraction reads `x` at `(b, n, d)` … -/
theorem idx_dot_x (b : Fin 8) (n m : Fin 4096) (d : Fin 512) : lidx_main_v4 (ix3 b n m) d = ix3 b n d :=
  funext fun a => Fin.ext (by match a with | ⟨0, _⟩ => rfl | ⟨1, _⟩ => rfl | ⟨2, _⟩ => rfl)

/-- … and `y` at `(b, m, d)`. -/
theorem idx_dot_y (b : Fin 8) (n m : Fin 4096) (d : Fin 512) : ridx_main_v4 (ix3 b n m) d = ix3 b m d :=
  funext fun a => Fin.ext (by match a with | ⟨0, _⟩ => rfl | ⟨1, _⟩ => rfl | ⟨2, _⟩ => rfl)

/-- The reference's result, as a function of its two arguments, is the specification. -/
theorem stage_eq (X Y : Rows.Idx → EReal) : val_main_v16 (F := Ideal) X Y = negDist X Y := by
  funext i
  obtain ⟨b, n, m, rfl⟩ : ∃ (b : Fin 8) (n m : Fin 4096), i = ix3 b n m := ⟨i 0, i 1, i 2, eq_ix3 i⟩
  rw [negDist_ix3]
  simp only [val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_cst_apply, val_main_cst_0_apply, val_main_cst_1_apply, val_main_cst_2_apply,
    Ideal.hostNegf_def, Ideal.negf_def, Ideal.hostUnary_sqrt_def, Ideal.maximumf_def, Ideal.subf_def, Ideal.addf_def,
    Ideal.mulf_def, Ideal.ofBits_def, Ideal.ofBits_zero_f32, zero_add]
  show entry _ _ _ = negDistAt X Y b n m
  exact entry_congr
    (Finset.sum_congr rfl fun d _ => by rw [idx_sq_x])
    (Finset.sum_congr rfl fun d _ => by rw [idx_sq_y])
    (Finset.sum_congr rfl fun d _ => by rw [idx_dot_x, idx_dot_y])

end Cert.NegDist.Reference

end
-- ==== Proof.lean ====
/-
  The certificate of the negated pairwise Euclidean distance kernel against its reference.

  Both programs compute, at `(b, n, m)`, `−√ max((‖x[b,n]‖² + ‖y[b,m]‖²) − 2·⟨x[b,n], y[b,m]⟩, 0)` on the extended
  reals, in the same grouping (Proof/Spec.lean). The kernel does it block by block over an `8 × 4 × 4` grid: each step
  stores the specification's entries of its two loaded blocks (Proof/Body.lean), the blocks are those of one function
  of the whole arguments and tile the result (Proof/Blocks.lean). The reference does it with whole-array operations,
  read index by index (Proof/Reference.lean). The kernel's idealization rewrote nothing, so it is the kernel's own
  text read on the extended reals. The three programs terminate without a fault and leave their arguments unchanged.
-/
import proofs.«148608_j37383395344617_1_alg».proof.Defs
import proofs.«148608_j37383395344617_1_alg».proof.Proof.Gen.Kernel
import proofs.«148608_j37383395344617_1_alg».proof.Proof.Gen.Kernel.Frame
import proofs.«148608_j37383395344617_1_alg».proof.Proof.Gen.KernelIdeal
import proofs.«148608_j37383395344617_1_alg».proof.Proof.Gen.KernelIdeal.Frame
import proofs.«148608_j37383395344617_1_alg».proof.Proof.Gen.KernelIdeal.Value
import proofs.«148608_j37383395344617_1_alg».proof.Proof.Gen.ReferenceIdeal
import proofs.«148608_j37383395344617_1_alg».proof.Proof.Gen.ReferenceIdeal.Run
import proofs.«148608_j37383395344617_1_alg».proof.Proof.Gen.ReferenceIdeal.Read
import proofs.«148608_j37383395344617_1_alg».proof.Proof.Gen.Pre_finite_inputs
import proofs.«148608_j37383395344617_1_alg».proof.Proof.Blocks
import proofs.«148608_j37383395344617_1_alg».proof.Proof.Reference
import Idealize.ShloMosaic.Adequacy
import Idealize.ShloMosaic.Init

noncomputable section

namespace Cert.Proof

open Idealize.ShloMosaic Idealize.SL.Sem

/-- The kernel as printed runs to the end and keeps its arguments. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of whole-array operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From arguments that agree, both runs end with the negated pairwise distance of those arguments. -/
theorem algebraic : Cert.algebraic_KernelIdeal_ReferenceIdeal := by
  intro m ρ m' ρ' _ hagree
  refine ⟨fun c => Cert.NegDist.negDist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.NegDist.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.NegDist.Reference.stage_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
